-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x56x56x64 : Shape := ⟨4, ![8, 56, 56, 64]⟩
abbrev S64x128 : Shape := ⟨2, ![64, 128]⟩
abbrev S128 : Shape := ⟨1, ![128]⟩
abbrev S_ : Shape := ⟨0, ![]⟩

class Facts : Prop where
  bcast_S_S8x56x56x64 : S_.BroadcastsInDim S8x56x56x64 (![] : Fin 0 → Fin S8x56x56x64.rank)
  reducesTo_S8x56x56x64_S_d0_1_2_3 : S8x56x56x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8x56x56x64 .f32) (main_arg1 : FVec F S64x128 .f32) (main_arg2 : FVec F S128 .f32) : IVec S_ 1 :=
  let main_v0 : FVec F S8x56x56x64 .f32 := Host.absf main_arg0
  let main_cst : FVec F S_ .f32 := constant S_ .f32 0x7F800000#32
  let main_v1 : FVec F S8x56x56x64 .f32 := broadcastInDim S8x56x56x64 ![] bcast_S_S8x56x56x64 main_cst
  let main_v2 : IVec S8x56x56x64 1 := cmpf .olt main_v0 main_v1
  let main_c : IVec S_ 1 := constantI S_ 1 1#1
  let main_v3 : IVec S_ 1 := (fun x v => Host.reduce IntOp.andi x v reducesTo_S8x56x56x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8x56x56x64 : Shape := ⟨4, ![8, 56, 56, 64]⟩
abbrev S64x128 : Shape := ⟨2, ![64, 128]⟩
abbrev S128 : Shape := ⟨1, ![128]⟩
abbrev S25088x64 : Shape := ⟨2, ![25088, 64]⟩
abbrev S1x128 : Shape := ⟨2, ![1, 128]⟩
abbrev S25088x128 : Shape := ⟨2, ![25088, 128]⟩
abbrev S256x64 : Shape := ⟨2, ![256, 64]⟩
abbrev S256x128 : Shape := ⟨2, ![256, 128]⟩
abbrev S256x64x1 : Shape := ⟨3, ![256, 64, 1]⟩
abbrev S1x64x128 : Shape := ⟨3, ![1, 64, 128]⟩
abbrev S256x64x128 : Shape := ⟨3, ![256, 64, 128]⟩
abbrev S8x3136x128 : Shape := ⟨3, ![8, 3136, 128]⟩

abbrev nBuf : Space → Nat
  | .hbm => 7
  | .vmem => 6
  | .smem => 0
  | _ => 0

abbrev bufTy : (tb : Table) → Fin (tcTables nBuf tb) → BufTy
  | .hbm, ⟨0, _⟩ => ⟨S8x56x56x64, .f32⟩
  | .hbm, ⟨1, _⟩ => ⟨S64x128, .f32⟩
  | .hbm, ⟨2, _⟩ => ⟨S128, .f32⟩
  | .hbm, ⟨3, _⟩ => ⟨S25088x64, .f32⟩
  | .hbm, ⟨4, _⟩ => ⟨S1x128, .f32⟩
  | .hbm, ⟨5, _⟩ => ⟨S25088x128, .f32⟩
  | .hbm, ⟨6, _⟩ => ⟨S8x3136x128, .f32⟩
  | .local _ .vmem, ⟨0, _⟩ => ⟨S256x64, .f32⟩
  | .local _ .vmem, ⟨1, _⟩ => ⟨S256x64, .f32⟩
  | .local _ .vmem, ⟨2, _⟩ => ⟨S64x128, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | _, _ => ⟨S8x56x56x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x56x56x64_S25088x64 : S8x56x56x64.ShapeCasts S25088x64
  shapeCasts_S128_S1x128 : S128.ShapeCasts S1x128
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S256x64_S256x64x1 : S256x64.ShapeCasts S256x64x1
  shapeCasts_S64x128_S1x64x128 : S64x128.ShapeCasts S1x64x128
  broadcasts_S256x64x1_S256x64x128 : S256x64x1.Broadcasts S256x64x128
  broadcasts_S1x64x128_S256x64x128 : S1x64x128.Broadcasts S256x64x128
  reduces_S256x64x128_S256x128 : S256x64x128.Reduces [1] S256x128
  broadcasts_S1x128_S256x128 : S1x128.Broadcasts S256x128
  inb_S256x128_S256x128_0_0 : ∀ a, (![0, 0] : Fin 2 → Nat) a + S256x128.size a ≤ S256x128.size a
  h_S256x128 : 0 < S256x128.numel
  shapeCasts_S25088x128_S8x3136x128 : S25088x128.ShapeCasts S8x3136x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S25088x64.size a
  hwx0_0 : ∀ i : grid0.Coords, EltTy.bits .f32 = 32 ∨ (Rect.block (s := S25088x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S25088x128.size a
  hwx0_3 : ∀ i : grid0.Coords, EltTy.bits .f32 = 32 ∨ (Rect.block (s := S25088x128) S256x128.size (cc0_transform_3 i) (hinb0_3 i)).WholeWords (EltTy.packing .f32)

variable [Facts₀]

abbrev win0_0 : Pipeline.Window sig grid0 :=
  Pipeline.Window.ofSpec (Memref.whole main_v0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x56x56x64 : Shape := ⟨4, ![8, 56, 56, 64]⟩
abbrev S64x128 : Shape := ⟨2, ![64, 128]⟩
abbrev S128 : Shape := ⟨1, ![128]⟩
abbrev S8x3136x64 : Shape := ⟨3, ![8, 3136, 64]⟩
abbrev S8x3136x64x1 : Shape := ⟨4, ![8, 3136, 64, 1]⟩
abbrev S1x1x64x128 : Shape := ⟨4, ![1, 1, 64, 128]⟩
abbrev S8x3136x64x128 : Shape := ⟨4, ![8, 3136, 64, 128]⟩
abbrev S_ : Shape := ⟨0, ![]⟩
abbrev S8x3136x128 : Shape := ⟨3, ![8, 3136, 128]⟩
abbrev S1x1x128 : Shape := ⟨3, ![1, 1, 128]⟩

abbrev nBuf : Space → Nat
  | .hbm => 15
  | .vmem => 0
  | .smem => 0
  | _ => 0

abbrev bufTy : (tb : Table) → Fin (tcTables nBuf tb) → BufTy
  | .hbm, ⟨0, _⟩ => ⟨S8x56x56x64, .f32⟩
  | .hbm, ⟨1, _⟩ => ⟨S64x128, .f32⟩
  | .hbm, ⟨2, _⟩ => ⟨S128, .f32⟩
  | .hbm, ⟨3, _⟩ => ⟨S8x3136x64, .f32⟩
  | .hbm, ⟨4, _⟩ => ⟨S8x3136x64x1, .f32⟩
  | .hbm, ⟨5, _⟩ => ⟨S1x1x64x128, .f32⟩
  | .hbm, ⟨6, _⟩ => ⟨S8x3136x64x128, .f32⟩
  | .hbm, ⟨7, _⟩ => ⟨S8x3136x64x128, .f32⟩
  | .hbm, ⟨8, _⟩ => ⟨S8x3136x64x128, .f32⟩
  | .hbm, ⟨9, _⟩ => ⟨S8x3136x64x128, .f32⟩
  | .hbm, ⟨10, _⟩ => ⟨S_, .f32⟩
  | .hbm, ⟨11, _⟩ => ⟨S8x3136x128, .f32⟩
  | .hbm, ⟨12, _⟩ => ⟨S1x1x128, .f32⟩
  | .hbm, ⟨13, _⟩ => ⟨S8x3136x128, .f32⟩
  | .hbm, ⟨14, _⟩ => ⟨S8x3136x128, .f32⟩
  | _, _ => ⟨S8x56x56x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S8x56x56x64_S8x3136x64 : S8x56x56x64.ShapeCasts S8x3136x64
  bcast_S8x3136x64_S8x3136x64x1_0_1_2 : S8x3136x64.BroadcastsInDim S8x3136x64x1 (![0, 1, 2] : Fin 3 → Fin S8x3136x64x1.rank)
  bcast_S64x128_S1x1x64x128_2_3 : S64x128.BroadcastsInDim S1x1x64x128 (![2, 3] : Fin 2 → Fin S1x1x64x128.rank)
  bcast_S8x3136x64x1_S8x3136x64x128_0_1_2_3 : S8x3136x64x1.BroadcastsInDim S8x3136x64x128 (![0, 1, 2, 3] : Fin 4 → Fin S8x3136x64x128.rank)
  bcast_S1x1x64x128_S8x3136x64x128_0_1_2_3 : S1x1x64x128.BroadcastsInDim S8x3136x64x128 (![0, 1, 2, 3] : Fin 4 → Fin S8x3136x64x128.rank)
  reducesTo_S8x3136x64x128_S8x3136x128_d2 : S8x3136x64x128.ReducesTo [2] S8x3136x128
  h_S_ : 0 < S_.numel
  bcast_S128_S1x1x128_2 : S128.BroadcastsInDim S1x1x128 (![2] : Fin 1 → Fin S1x1x128.rank)
  bcast_S1x1x128_S8x3136x128_0_1_2 : S1x1x128.BroadcastsInDim S8x3136x128 (![0, 1, 2] : Fin 3 → Fin S8x3136x128.rank)

variable [Facts₀]

class Facts : Prop extends Facts₀ where

variable [Facts]
-- ==== Proof.LpSpec.lean ====
/-
  The function both programs compute, over the extended reals.

  For an image batch `x : [8, 56, 56, 64]`, a table `w : [64, 128]` and a bias `b : [128]`, the result at
  (image `n`, pixel `p` of the 56 × 56 = 3136 pixels in row-major order, output channel `o`) is the L1 distance
  between the pixel's 64 channels and column `o` of the table, plus the bias:

      out[n, p, o] = (∑ c, |x[n, p / 56, p % 56, c] - w[c, o]|) + b[o].

  Nothing here needs the inputs finite: both programs apply the same operations in the same order at every
  element; only the empty-sum start `0 + s = s` is used on the reference's side.
-/
import Idealize.ShloMosaic.Lib.ValueIdx
import Idealize.ShloMosaic.Lib.Pipeline.Value
import Idealize.ShloMosaic.PureOps.Ideal.Laws

noncomputable section

namespace Cert.LpNorm

open Idealize.ShloMosaic Idealize.ShloMosaic.ValueIdx

/-- The image batch's shape. -/
abbrev SX : Shape := ⟨4, ![8, 56, 56, 64]⟩
/-- The table's shape. -/
abbrev SW : Shape := ⟨2, ![64, 128]⟩
/-- The bias's shape. -/
abbrev SB : Shape := ⟨1, ![128]⟩
/-- The result's shape. -/
abbrev SO : Shape := ⟨3, ![8, 3136, 128]⟩

/-- Channel `c` of pixel `p` (row `p / 56`, column `p % 56`) of image `n`. -/
abbrev pix (n : Fin 8) (p : Fin 3136) (c : Fin 64) : SX.Idx :=
  ix4 n ⟨p.val / 56, by have := p.isLt; omega⟩ ⟨p.val % 56, by omega⟩ c

/-- Its row-major position in the batch is `(n · 3136 + p) · 64 + c`: the pixel's position among all 25088 pixels,
    then the channel. -/
theorem pix_rowMajor (n : Fin 8) (p : Fin 3136) (c : Fin 64) :
    (SX.rowMajor (pix n p c)).val = (n.val * 3136 + p.val) * 64 + c.val := by
  rw [Shape.rowMajor_val_four]
  show ((n.val * 56 + p.val / 56) * 56 + p.val % 56) * 64 + c.val = _
  omega

/-- The L1 distance between pixel `(n, p)` and column `o` of the table, plus the bias at `o`. -/
def lpAt (x : SX.Idx → EReal) (w : SW.Idx → EReal) (b : SB.Idx → EReal) (n : Fin 8) (p : Fin 3136) (o : Fin 128) : EReal :=
  (∑ c : Fin 64, FloatOps.absf (F := Ideal) (φ := .f32) (x (pix n p c) - w (ix2 c o))) + b (ix1 o)

/-- The whole result array. -/
def lpOut (x : SX.Idx → EReal) (w : SW.Idx → EReal) (b : SB.Idx → EReal) : SO.Idx → EReal :=
  fun i => lpAt x w b (i 0) (i 1) (i 2)

theorem lpOut_apply (x : SX.Idx → EReal) (w : SW.Idx → EReal) (b : SB.Idx → EReal) (n : Fin 8) (p : Fin 3136) (o : Fin 128) :
    lpOut x w b (ix3 n p o) = lpAt x w b n p o := rfl

end Cert.LpNorm

end
-- ==== Proof.RefSide.lean ====
/-
  The reference's result, read one operation at a time (the generated read-at-an-index lemmas), is the function of
  LpSpec.lean: the reshape [8,56,56,64] → [8,3136,64] sends (n, p, c) to channel `c` of pixel `p` of image `n`,
  the two broadcasts spread the pixels over the 128 output channels and the table over the pixels, and the reduce
  over axis 2 starts from the literal zero, so its `0 + s` is `s`.
-/
import proofs.«133870_j12043088298091_1_alg».proof.Proof.Gen.ReferenceIdeal.Read
import proofs.«133870_j12043088298091_1_alg».proof.Proof.LpSpec

set_option maxRecDepth 16384

noncomputable section

namespace Cert.LpNorm.Ref

open Cert.ReferenceIdeal Cert.ReferenceIdeal.Read Idealize.ShloMosaic Idealize.ShloMosaic.ValueIdx Cert.LpNorm

/-- Through the reshape and the two broadcasts, entry (n, p, c, o) of the 4-dimensional difference reads the batch at
    channel `c` of pixel `p` of image `n`. -/
theorem pixel_index (n : Fin 8) (p : Fin 3136) (o : Fin 128) (k : Fin 64) :
    idx_main_v0 (idx_main_v1 (idx_main_v3 (idx_main_v7 (ix3 n p o) k))) = pix n p k := by
  have hn := n.isLt; have hp := p.isLt; have hk := k.isLt
  funext a; apply Fin.ext
  match a with
  | ⟨0, _⟩ => show ((n.val * 3136 + p.val) * 64 + k.val) / 200704 = n.val; omega
  | ⟨1, _⟩ => show ((n.val * 3136 + p.val) * 64 + k.val) / 3584 % 56 = p.val / 56; omega
  | ⟨2, _⟩ => show ((n.val * 3136 + p.val) * 64 + k.val) / 64 % 56 = p.val % 56; omega
  | ⟨3, _⟩ => show ((n.val * 3136 + p.val) * 64 + k.val) % 64 = k.val; omega

/-- And the table at row `c`, column `o`. -/
theorem table_index (n : Fin 8) (p : Fin 3136) (o : Fin 128) (k : Fin 64) :
    idx_main_v2 (idx_main_v4 (idx_main_v7 (ix3 n p o) k)) = ix2 k o := by
  funext a; apply Fin.ext
  match a with
  | ⟨0, _⟩ => rfl
  | ⟨1, _⟩ => rfl

/-- The bias at `o`. -/
theorem bias_index (n : Fin 8) (p : Fin 3136) (o : Fin 128) :
    idx_main_v8 (idx_main_v9 (ix3 n p o)) = ix1 o := by
  funext a; apply Fin.ext
  match a with
  | ⟨0, _⟩ => rfl

/-- The reference's last stage is the specification. -/
theorem ref_eq (x : (⟨S8x56x56x64, .f32⟩ : BufTy).Contents (Elt Ideal)) (w : (⟨S64x128, .f32⟩ : BufTy).Contents (Elt Ideal))
    (b : (⟨S128, .f32⟩ : BufTy).Contents (Elt Ideal)) :
    val_main_v10 (F := Ideal) x w b = lpOut x w b := by
  funext i
  obtain ⟨n, p, o, rfl⟩ : ∃ (n : Fin 8) (p : Fin 3136) (o : Fin 128), i = ix3 n p o := ⟨i 0, i 1, i 2, eq_ix3 i⟩
  rw [lpOut_apply]
  unfold lpAt
  rw [val_main_v10_apply, val_main_v7_apply, val_main_v9_apply, val_main_v8_apply, val_main_cst_apply, bias_index]
  refine congrArg₂ (· + ·) ?_ rfl
  rw [show FloatOps.ofBits (F := Ideal) .f32 0x00000000#32 = (0 : EReal) from Ideal.ofBits_zero_f32, zero_add]
  refine Finset.sum_congr rfl fun k _ => ?_
  rw [val_main_v6_apply, val_main_v5_apply, val_main_v3_apply, val_main_v1_apply, val_main_v0_apply, val_main_v4_apply,
    val_main_v2_apply, pixel_index, table_index]
  rfl

end Cert.LpNorm.Ref

end
-- ==== Proof.KernelBlock.lean ====
/-
  One block of the kernel, element by element, over the extended reals.

  At a grid point the body holds 256 pixels `x0 : [256, 64]`, the whole table `x1 : [64, 128]` and the bias as a
  row `x2 : [1, 128]`. It spreads the pixels along a new last axis and the table along a new first axis, both to
  [256, 64, 128], subtracts, takes absolute values, sums over the middle axis and adds the bias row to every row:

      block[r, o] = (∑ c, |x0[r, c] - x1[c, o]|) + x2[0, o].

  The lane sum over one axis is a plain finite sum at the ideal values; the re-layouts only rename indices.
-/
import proofs.«133870_j12043088298091_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.LpNorm.Block

open Cert.KernelIdeal Cert.KernelIdeal.Gen Idealize.ShloMosaic Idealize.ShloMosaic.ValueIdx

/-- Entry (r, o) of a block: the L1 distance between row `r` of the pixels and column `o` of the table, plus the
    bias row at `o`. -/
def blockAt (x0 : FVec Ideal S256x64 .f32) (x1 : FVec Ideal S64x128 .f32) (x2 : FVec Ideal S1x128 .f32) (r : Fin 256) (o : Fin 128) : EReal :=
  (∑ c : Fin 64, FloatOps.absf (F := Ideal) (φ := .f32) (x0 (ix2 r c) - x1 (ix2 c o))) + x2 (ix2 0 o)

/-- The block's rows given a unit last axis and repeated over the 128 output channels: entry (r, c, o) is
    `x0[r, c]`. -/
theorem rows_apply (x0 : FVec Ideal S256x64 .f32) (r : Fin 256) (c : Fin 64) (o : Fin 128) :
    broadcastTo S256x64x128 (shapeCast S256x64x1 (shapeCast S256x64 x0 shapeCasts_S256x64_S256x64) shapeCasts_S256x64_S256x64x1)
      broadcasts_S256x64x1_S256x64x128 (ix3 r c o) = x0 (ix2 r c) := by
  rw [shapeCast_self]
  refine (broadcastTo_apply _ _ (ix3 r c o) (ix3 r c (0 : Fin 1)) (fun a => ?_)).trans ?_
  · match a with
    | ⟨0, _⟩ => show r.val = if (256 : Nat) = 1 then 0 else r.val; rw [if_neg (by decide)]
    | ⟨1, _⟩ => show c.val = if (64 : Nat) = 1 then 0 else c.val; rw [if_neg (by decide)]
    | ⟨2, _⟩ => show 0 = if (1 : Nat) = 1 then 0 else o.val; rw [if_pos rfl]
  · refine shapeCast_apply _ _ _ (ix2 r c) ?_
    rw [Shape.rowMajor_val_two, Shape.rowMajor_val_three]
    show r.val * 64 + c.val = (r.val * 64 + c.val) * 1 + 0
    omega

/-- The table given a unit first axis and repeated over the block's 256 rows: entry (r, c, o) is `x1[c, o]`. -/
theorem table_apply (x1 : FVec Ideal S64x128 .f32) (r : Fin 256) (c : Fin 64) (o : Fin 128) :
    broadcastTo S256x64x128 (shapeCast S1x64x128 x1 shapeCasts_S64x128_S1x64x128) broadcasts_S1x64x128_S256x64x128 (ix3 r c o)
      = x1 (ix2 c o) := by
  refine (broadcastTo_apply _ _ (ix3 r c o) (ix3 (0 : Fin 1) c o) (fun a => ?_)).trans ?_
  · match a with
    | ⟨0, _⟩ => show 0 = if (1 : Nat) = 1 then 0 else r.val; rw [if_pos rfl]
    | ⟨1, _⟩ => show c.val = if (64 : Nat) = 1 then 0 else c.val; rw [if_neg (by decide)]
    | ⟨2, _⟩ => show o.val = if (128 : Nat) = 1 then 0 else o.val; rw [if_neg (by decide)]
  · refine shapeCast_apply _ _ _ (ix2 c o) ?_
    rw [Shape.rowMajor_val_two, Shape.rowMajor_val_three]
    show c.val * 128 + o.val = (0 * 64 + c.val) * 128 + o.val
    omega

/-- The bias row repeated over the block's 256 rows: entry (r, o) is `x2[0, o]`. -/
theorem bias_apply (x2 : FVec Ideal S1x128 .f32) (r : Fin 256) (o : Fin 128) :
    broadcastTo S256x128 (shapeCast S1x128 x2 shapeCasts_S1x128_S1x128) broadcasts_S1x128_S256x128 (ix2 r o) = x2 (ix2 0 o) := by
  rw [shapeCast_self]
  refine broadcastTo_apply _ _ (ix2 r o) (ix2 (0 : Fin 1) o) (fun a => ?_)
  match a with
  | ⟨0, _⟩ => show 0 = if (1 : Nat) = 1 then 0 else r.val; rw [if_pos rfl]
  | ⟨1, _⟩ => show o.val = if (128 : Nat) = 1 then 0 else o.val; rw [if_neg (by decide)]

/-- What the body stores, at entry (r, o): the sum over the middle axis of the absolute differences reads, term by
    term, `|x0[r, c] - x1[c, o]|`. -/
theorem pay_apply (x0 : FVec Ideal S256x64 .f32) (x1 : FVec Ideal S64x128 .f32) (x2 : FVec Ideal S1x128 .f32) (r : Fin 256) (o : Fin 128) :
    k0_pay1 (F := Ideal) x0 x1 x2 (ix2 r o) = blockAt x0 x1 x2 r o := by
  unfold k0_pay1 blockAt
  dsimp only
  refine congrArg₂ (· + ·) ?_ (bias_apply x2 r o)
  refine (Ideal.multiReduction_add_single _ _ reduces_S256x64x128_S256x128 _ _ (ix2 r o)).trans ?_
  refine Finset.sum_congr rfl fun c _ => ?_
  have hl : reduces_S256x64x128_S256x128.lift (ix2 r o) c = ix3 r (c : Fin 64) o := by
    funext a; apply Fin.ext
    match a with | ⟨0, _⟩ => rfl | ⟨1, _⟩ => rfl | ⟨2, _⟩ => rfl
  rw [hl]
  exact congrArg₂ (fun u v => FloatOps.absf (F := Ideal) (φ := .f32) (u - v)) (rows_apply x0 r c o) (table_apply x1 r c o)

/-- The same at any index of the block. -/
theorem pay_at (x0 : FVec Ideal S256x64 .f32) (x1 : FVec Ideal S64x128 .f32) (x2 : FVec Ideal S1x128 .f32) (y : S256x128.Idx) :
    k0_pay1 (F := Ideal) x0 x1 x2 y = blockAt x0 x1 x2 (y 0) (y 1) := by
  obtain ⟨r, o, rfl⟩ : ∃ (r : Fin 256) (o : Fin 128), y = ix2 r o := ⟨y 0, y 1, eq_ix2 y⟩
  exact pay_apply x0 x1 x2 r o

end Cert.LpNorm.Block

end
-- ==== Proof.KernelArray.lean ====
/-
  From the blocks to the whole output array of the region, and the host reshapes around it.

  The grid has 98 points; point `t` reads rows `256 t … 256 t + 255` of the [25088, 64] pixel array, the whole table
  and the whole bias row, and writes rows `256 t … 256 t + 255` of the [25088, 128] result. So every block is the
  restriction of ONE function of the three arrays,

      arr2[R, o] = (∑ c, |a0[R, c] - a1[c, o]|) + a2[0, o],

  and the 98 blocks tile the 25088 rows (row `R` lies in the block of point `R / 256`), so the array ends holding
  `arr2`. Before the region the host reshapes the batch to [25088, 64] and the bias to [1, 128]; after it, it
  reshapes the result to [8, 3136, 128].
-/
import proofs.«133870_j12043088298091_1_alg».proof.Proof.Gen.KernelIdeal.Frame
import proofs.«133870_j12043088298091_1_alg».proof.Proof.KernelBlock
import Idealize.ShloMosaic.Lib.StableHlo.Run

set_option maxRecDepth 16384

noncomputable section

namespace Cert.LpNorm.Arr

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The four index maps over the grid: the pixel window and the result window are at block row `t`, block column 0;
    the table and the bias row are always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The region's result as one function of the three arrays it reads. -/
def arr2 (a0 : FVec Ideal S25088x64 .f32) (a1 : FVec Ideal S64x128 .f32) (a2 : FVec Ideal S1x128 .f32) : FVec Ideal S25088x128 .f32 :=
  fun i => (∑ c : Fin 64, FloatOps.absf (F := Ideal) (φ := .f32) (a0 (ix2 (i 0) c) - a1 (ix2 c (i 1)))) + a2 (ix2 0 (i 1))

/-- Row `r` of point `t`'s pixel block is row `256 t + r` of the pixel array. -/
theorem iblk0_apply (c : Dev nD) (t : Fin cfg0.N) (r : Fin 256) (k : Fin 64) (R : Fin 25088) (hR : R.val = t.val * 256 + r.val) :
    (iblk m c 0 t : Vec Ideal S256x64 .f32) (ix2 r k) = (V m c main_v0 : S25088x64.Idx → EReal) (ix2 R k) := by
  obtain ⟨e00, e01, -⟩ := idx_facts t
  unfold iblk
  rw [View.read_apply]
  show V m c main_v0 _ = V m c main_v0 _
  congr 1
  funext a
  apply Fin.ext
  match a with
  | ⟨0, _⟩ => show win0_0.index t 0 * 256 + 1 * r.val = R.val; rw [e00, hR]; omega
  | ⟨1, _⟩ => show win0_0.index t 1 * 64 + 1 * k.val = k.val; rw [e01]; omega

/-- The table's block is the table. -/
theorem iblk1_apply (c : Dev nD) (t : Fin cfg0.N) (k : Fin 64) (o : Fin 128) :
    (iblk m c 1 t : Vec Ideal S64x128 .f32) (ix2 k o) = (V m c main_arg1 : S64x128.Idx → EReal) (ix2 k o) := by
  obtain ⟨-, -, e10, e11, -⟩ := idx_facts t
  unfold iblk
  rw [View.read_apply]
  show V m c main_arg1 _ = V m c main_arg1 _
  congr 1
  funext a
  apply Fin.ext
  match a with
  | ⟨0, _⟩ => show win0_1.index t 0 * 64 + 1 * k.val = k.val; rw [e10]; omega
  | ⟨1, _⟩ => show win0_1.index t 1 * 128 + 1 * o.val = o.val; rw [e11]; omega

/-- The bias row's block is the bias row. -/
theorem iblk2_apply (c : Dev nD) (t : Fin cfg0.N) (o : Fin 128) :
    (iblk m c 2 t : Vec Ideal S1x128 .f32) (ix2 0 o) = (V m c main_v1 : S1x128.Idx → EReal) (ix2 0 o) := by
  obtain ⟨-, -, -, -, e20, e21, -⟩ := idx_facts t
  unfold iblk
  rw [View.read_apply]
  show V m c main_v1 _ = V m c main_v1 _
  congr 1
  funext a
  apply Fin.ext
  match a with
  | ⟨0, _⟩ => show win0_2.index t 0 * 1 + 1 * 0 = 0; rw [e20]
  | ⟨1, _⟩ => show win0_2.index t 1 * 128 + 1 * o.val = o.val; rw [e21]; omega

/-- Row `r` of what point `t` computes is row `256 t + r` of `arr2`. -/
theorem block_row (c : Dev nD) (t : Fin cfg0.N) (r : Fin 256) (o : Fin 128) (R : Fin 25088) (hR : R.val = t.val * 256 + r.val) :
    Block.blockAt (iblk m c 0 t) (iblk m c 1 t) (iblk m c 2 t) r o
      = arr2 (V m c main_v0) (V m c main_arg1) (V m c main_v1) (ix2 R o) := by
  unfold Block.blockAt arr2
  refine congrArg₂ (· + ·) (Finset.sum_congr rfl fun k _ => ?_) (iblk2_apply m c t o)
  rw [iblk0_apply m c t r k R hR, iblk1_apply m c t k o]

/-- What point `t` writes back is block `t` of `arr2` of the arrays as the region finds them. -/
theorem flushed_eq (c : Dev nD) (t : Fin cfg0.N) :
    (dats m 0 c).flushed 3 t = ((cfg0.win 3).blk t).view.read (Elt Ideal) (arr2 (V m c main_v0) (V m c main_arg1) (V m c main_v1)) := by
  show (cfg0.win 3).cut (grid0.coords t) ((dats m 0 c).after 3 t) = _
  rw [after0_3]
  unfold out0_3
  rw [View.canon_unit_zero hz]
  simp only [View.ld_unit_zero (S := S256x64) hz, View.ld_unit_zero (S := S64x128) hz, View.ld_unit_zero (S := S1x128) hz]
  funext j
  obtain ⟨-, -, -, -, -, -, e30, e31⟩ := idx_facts t
  refine (Block.pay_at (iblk m c 0 t) (iblk m c 1 t) (iblk m c 2 t) ((win0 3).xinj (grid0.coords t) j)).trans ?_
  show _ = arr2 (V m c main_v0) (V m c main_arg1) (V m c main_v1) (((cfg0.win 3).blk t).view.emb j)
  refine (block_row m c t _ _ (((cfg0.win 3).blk t).view.emb j 0) ?_).trans ?_
  · show win0_3.index t 0 * 256 + 1 * (j 0).val = t.val * 256 + (j 0).val
    rw [e30]; omega
  · refine congrArg _ (funext fun a => Fin.ext ?_)
    match a with
    | ⟨0, _⟩ => rfl
    | ⟨1, _⟩ => show (j 1).val = win0_3.index t 1 * 128 + 1 * (j 1).val; rw [e31]; omega

/-- An index of the result array is in point `t`'s block iff each coordinate is in the block's range on its axis. -/
theorem mem_blk (t : Fin cfg0.N) (i : S25088x128.Idx) :
    i ∈ ((cfg0.win 3).blk t).view.set ↔ ∀ a : Fin 2, win0_3.index t a * S256x128.size a ≤ (i a).val ∧ (i a).val < win0_3.index t a * S256x128.size a + S256x128.size a := by
  show i ∈ ((View.whole main_v2).slice (win0_3.rect t)).set ↔ _
  rw [View.set_slice_whole, Rect.mem_set_unit]
  exact Iff.rfl

/-- The 98 blocks of 256 rows tile the 25088 rows: row `R` is in the block of point `R / 256`. -/
theorem cover (i : S25088x128.Idx) : ∃ t : Fin cfg0.N, (cfg0.win 3).flush t = true ∧ i ∈ ((cfg0.win 3).blk t).view.set := by
  have hN : cfg0.N = 98 := N_0
  have hi0 : (i 0).val < 25088 := (i 0).isLt
  have hi1 : (i 1).val < 128 := (i 1).isLt
  let t : Fin cfg0.N := ⟨(i 0).val / 256, by rw [hN]; omega⟩
  obtain ⟨-, -, -, -, -, -, e30, e31⟩ := idx_facts t
  refine ⟨t, flush0_3 t, ?_⟩
  rw [mem_blk]
  intro a
  match a with
  | ⟨0, _⟩ => show win0_3.index t 0 * 256 ≤ (i 0).val ∧ (i 0).val < win0_3.index t 0 * 256 + 256; rw [e30]; show (i 0).val / 256 * 256 ≤ _ ∧ _ < (i 0).val / 256 * 256 + 256; omega
  | ⟨1, _⟩ => show win0_3.index t 1 * 128 ≤ (i 1).val ∧ (i 1).val < win0_3.index t 1 * 128 + 128; rw [e31]; omega

/-- The result array after the region. -/
theorem final (c : Dev nD) : (dats m 0 c).arrAt 3 cfg0.N = arr2 (V m c main_v0) (V m c main_arg1) (V m c main_v1) :=
  (dats m 0 c).arrAt_eq_of_cover 3 (arr2 (V m c main_v0) (V m c main_arg1) (V m c main_v1)) (fun t _ => flushed_eq m c t) cover

/-- The first host reshape: the region finds the batch as 25088 pixels of 64 channels. -/
theorem V_main_v0 (c : Dev nD) : (V m c main_v0 : S25088x64.Idx → EReal)
    = shapeCast S25088x64 (m ((c : Thread nD τ).loc main_arg0)) shapeCasts_S8x56x56x64_S25088x64 := by
  show StableHlo.after hostOps0 (fun b => m (c, b)) (Proc.devRef .tc main_v0) = _
  after_results
  rfl

/-- The second: the bias as one row. -/
theorem V_main_v1 (c : Dev nD) : (V m c main_v1 : S1x128.Idx → EReal)
    = shapeCast S1x128 (m ((c : Thread nD τ).loc main_arg2)) shapeCasts_S128_S1x128 := by
  show StableHlo.after hostOps0 (fun b => m (c, b)) (Proc.devRef .tc main_v1) = _
  after_results
  rfl

/-- The reshape after the region reads the result array, which holds `arr2`. -/
theorem tail_v3 (c : Dev nD) : Pipeline.afterTail₀ cfgs (dats m) 0 (V0 m) [hostOps1] c main_v3
    = shapeCast S8x3136x128 (arr2 (V m c main_v0) (V m c main_arg1) (V m c main_v1)) shapeCasts_S25088x128_S8x3136x128 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = arr2 (V m c main_v0) (V m c main_arg1) (V m c main_v1) :=
    (Pipeline.withArrays_arr spec0 launch0.win.arr_inj c _ _ 3).trans (final m c)
  exact congrArg (fun A => shapeCast S8x3136x128 A shapeCasts_S25088x128_S8x3136x128) hw

end Cert.LpNorm.Arr

end
-- ==== Proof.KernelRun.lean ====
/-
  The idealized kernel's run, read: its result array holds the function of LpSpec.lean.

  The region's result is `arr2` of the reshaped batch, the table and the reshaped bias (KernelArray.lean), and the
  last host line reshapes it to [8, 3136, 128]. A reshape keeps row-major positions: entry (n, p, o) of the result is
  entry (3136 n + p, o) of the region's array; row 3136 n + p of the [25088, 64] pixel array is pixel `p` of image
  `n`, at row-major position (3136 n + p) · 64 + c of the batch; and entry (0, o) of the bias row is the bias at `o`.
-/
import proofs.«133870_j12043088298091_1_alg».proof.Proof.KernelArray
import proofs.«133870_j12043088298091_1_alg».proof.Proof.LpSpec

set_option maxRecDepth 16384

noncomputable section

namespace Cert.LpNorm.Run

open Cert.KernelIdeal Cert.KernelIdeal.Gen Idealize.ShloMosaic Idealize.ShloMosaic.TcCoe Idealize.SL.Sem Idealize.ShloMosaic.ValueIdx
open Cert.LpNorm Cert.LpNorm.Arr

/-- The three reshapes composed with `arr2` are the specification. -/
theorem kernel_eq (x : FVec Ideal S8x56x56x64 .f32) (w : FVec Ideal S64x128 .f32) (b : FVec Ideal S128 .f32) :
    shapeCast S8x3136x128 (arr2 (shapeCast S25088x64 x shapeCasts_S8x56x56x64_S25088x64) w
      (shapeCast S1x128 b shapeCasts_S128_S1x128)) shapeCasts_S25088x128_S8x3136x128 = lpOut x w b := by
  funext i
  obtain ⟨n, p, o, rfl⟩ : ∃ (n : Fin 8) (p : Fin 3136) (o : Fin 128), i = ix3 n p o := ⟨i 0, i 1, i 2, eq_ix3 i⟩
  have hn := n.isLt; have hp := p.isLt
  rw [lpOut_apply]
  unfold lpAt
  let R : Fin 25088 := ⟨n.val * 3136 + p.val, by omega⟩
  refine (shapeCast_apply _ _ (ix3 n p o) (ix2 R o) ?_).trans ?_
  · rw [Shape.rowMajor_val_two, Shape.rowMajor_val_three]
    show (n.val * 3136 + p.val) * 128 + o.val = (n.val * 3136 + p.val) * 128 + o.val
    rfl
  · show (∑ c : Fin 64, FloatOps.absf (F := Ideal) (φ := .f32)
        (shapeCast S25088x64 x shapeCasts_S8x56x56x64_S25088x64 (ix2 R c) - w (ix2 c o)))
        + shapeCast S1x128 b shapeCasts_S128_S1x128 (ix2 0 o) = _
    refine congrArg₂ (· + ·) (Finset.sum_congr rfl fun k _ => ?_) ?_
    · refine congrArg (fun u => FloatOps.absf (F := Ideal) (φ := .f32) (u - w (ix2 k o))) ?_
      refine shapeCast_apply _ _ (ix2 R k) (pix n p k) ?_
      rw [pix_rowMajor, Shape.rowMajor_val_two]
      rfl
    · refine shapeCast_apply _ _ (ix2 (0 : Fin 1) o) (ix1 o) ?_
      rw [Shape.rowMajor_val_one, Shape.rowMajor_val_two]
      show o.val = 0 * 128 + o.val
      omega

/-- Every weakly fair execution of the idealized kernel terminates with the result array at the specification of the
    argument arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
        = lpOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans
        ((tail_v3 m c).trans (by rw [V_main_v0, V_main_v1, V_main_arg1]; exact kernel_eq _ _ _)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.LpNorm.Run

end
-- ==== Proof.lean ====
/-
  The certificate: a Pallas kernel that computes, for a batch `x : [8, 56, 56, 64]`, a table `w : [64, 128]` and a
  bias `b : [128]`, the L1 distance between every pixel's 64 channels and every column of the table, plus the bias,

      out[n, p, o] = (∑ c, |x[n, p / 56, p % 56, c] - w[c, o]|) + b[o]        (p one of the 3136 pixels of image n),

  256 pixels per grid point, against the jnp reference that broadcasts the difference to [8, 3136, 64, 128] and sums
  over the channel axis.

  Over the extended reals the two programs apply the same operations to the same elements in the same order, so the
  precondition (finite inputs) is never opened: the kernel's lane sum starts from nothing and the reference's from a
  literal zero, `0 + s = s`; everything else is index bookkeeping through reshapes and broadcasts (LpSpec.lean states
  the function, RefSide.lean reads the reference, KernelBlock.lean one block of the kernel, KernelArray.lean the
  region's whole result and the host reshapes around it, KernelRun.lean the kernel's run). The ideal pass rewrote
  nothing, so the kernel's idealization is its own text and that claim is trivial; the three frames are the
  generated ones (the reference's is its generated run with the result dropped).
-/
import proofs.«133870_j12043088298091_1_alg».proof.Defs
import proofs.«133870_j12043088298091_1_alg».proof.Proof.Gen.Kernel
import proofs.«133870_j12043088298091_1_alg».proof.Proof.Gen.Kernel.Skeleton
import proofs.«133870_j12043088298091_1_alg».proof.Proof.Gen.Kernel.Launch
import proofs.«133870_j12043088298091_1_alg».proof.Proof.Gen.Kernel.Points
import proofs.«133870_j12043088298091_1_alg».proof.Proof.Gen.Kernel.Frame
import proofs.«133870_j12043088298091_1_alg».proof.Proof.Gen.KernelIdeal
import proofs.«133870_j12043088298091_1_alg».proof.Proof.Gen.KernelIdeal.Skeleton
import proofs.«133870_j12043088298091_1_alg».proof.Proof.Gen.KernelIdeal.Launch
import proofs.«133870_j12043088298091_1_alg».proof.Proof.Gen.KernelIdeal.Points
import proofs.«133870_j12043088298091_1_alg».proof.Proof.Gen.KernelIdeal.Frame
import proofs.«133870_j12043088298091_1_alg».proof.Proof.Gen.ReferenceIdeal
import proofs.«133870_j12043088298091_1_alg».proof.Proof.Gen.Pre_finite_inputs
import proofs.«133870_j12043088298091_1_alg».proof.Proof.Gen.ReferenceIdeal.Run
import proofs.«133870_j12043088298091_1_alg».proof.Proof.Gen.ReferenceIdeal.Read
import proofs.«133870_j12043088298091_1_alg».proof.Proof.RefSide
import proofs.«133870_j12043088298091_1_alg».proof.Proof.KernelRun
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the three arguments both programs end with the result array at
    `(∑ c, |x[n, p, c] - w[c, o]|) + b[o]` of those arguments. -/
theorem algebraic : Cert.algebraic_KernelIdeal_ReferenceIdeal := by
  intro m ρ m' ρ' _ hagree
  refine ⟨fun c => Cert.LpNorm.lpOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.LpNorm.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.LpNorm.Ref.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
